-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S16x10 : Shape := ⟨2, ![16, 10]⟩
abbrev S200x10 : Shape := ⟨2, ![200, 10]⟩
abbrev S200 : Shape := ⟨1, ![200]⟩
abbrev S200x50 : Shape := ⟨2, ![200, 50]⟩
abbrev S16x50 : Shape := ⟨2, ![16, 50]⟩
abbrev S16 : Shape := ⟨1, ![16]⟩
abbrev S_ : Shape := ⟨0, ![]⟩

class Facts : Prop where
  bcast_S_S16x10 : S_.BroadcastsInDim S16x10 (![] : Fin 0 → Fin S16x10.rank)
  reducesTo_S16x10_S_d0_1 : S16x10.ReducesTo [0, 1] S_
  h_S_ : 0 < S_.numel
  bcast_S_S200x10 : S_.BroadcastsInDim S200x10 (![] : Fin 0 → Fin S200x10.rank)
  reducesTo_S200x10_S_d0_1 : S200x10.ReducesTo [0, 1] S_
  bcast_S_S200 : S_.BroadcastsInDim S200 (![] : Fin 0 → Fin S200.rank)
  reducesTo_S200_S_d0 : S200.ReducesTo [0] S_
  bcast_S_S200x50 : S_.BroadcastsInDim S200x50 (![] : Fin 0 → Fin S200x50.rank)
  reducesTo_S200x50_S_d0_1 : S200x50.ReducesTo [0, 1] S_
  bcast_S_S16x50 : S_.BroadcastsInDim S16x50 (![] : Fin 0 → Fin S16x50.rank)
  reducesTo_S16x50_S_d0_1 : S16x50.ReducesTo [0, 1] S_
  bcast_S_S16 : S_.BroadcastsInDim S16 (![] : Fin 0 → Fin S16.rank)
  reducesTo_S16_S_d0 : S16.ReducesTo [0] S_
  bcast_S_S4096x256 : S_.BroadcastsInDim S4096x256 (![] : Fin 0 → Fin S4096x256.rank)
  reducesTo_S4096x256_S_d0_1 : S4096x256.ReducesTo [0, 1] S_

variable [Facts]

def fn_part2 {F : FTy → Type} [FloatOps F] (main_arg0 : IVec S4096x256 32) (main_v33 : IVec S_ 1) : IVec S_ 1 :=
  let main_c_12 : IVec S_ 32 := constantI S_ 32 0#32
  let main_v34 : IVec S4096x256 32 := broadcastInDim S4096x256 ![] bcast_S_S4096x256 main_c_12
  let main_v35 : IVec S4096x256 1 := cmpi .sge main_arg0 main_v34
  let main_c_13 : IVec S_ 32 := constantI S_ 32 16#32
  let main_v36 : IVec S4096x256 32 := broadcastInDim S4096x256 ![] bcast_S_S4096x256 main_c_13
  let main_v37 : IVec S4096x256 1 := cmpi .slt main_arg0 main_v36
  let main_v38 : IVec S4096x256 1 := andi main_v35 main_v37
  let main_c_14 : IVec S_ 1 := constantI S_ 1 1#1
  let main_v39 : IVec S_ 1 := (fun x v => Host.reduce IntOp.andi x v reducesTo_S4096x256_S_d0_1 h_S_) main_v38 main_c_14
  let main_v40 : IVec S_ 1 := andi main_v33 main_v39
  main_v40

def fn_part1 {F : FTy → Type} [FloatOps F] (main_arg0 : IVec S4096x256 32) (main_arg5 : FVec F S200 .f32) (main_arg6 : FVec F S16x50 .f32) (main_arg7 : FVec F S16 .f32) (main_v13 : IVec S_ 1) (main_v16 : IVec S200x50 1) : IVec S_ 1 :=
  let main_c_5 : IVec S_ 1 := constantI S_ 1 1#1
  let main_v17 : IVec S_ 1 := (fun x v => Host.reduce IntOp.andi x v reducesTo_S200x50_S_d0_1 h_S_) main_v16 main_c_5
  let main_v18 : IVec S_ 1 := andi main_v13 main_v17
  let main_v19 : FVec F S200 .f32 := Host.absf main_arg5
  let main_cst_6 : FVec F S_ .f32 := constant S_ .f32 0x7F800000#32
  let main_v20 : FVec F S200 .f32 := broadcastInDim S200 ![] bcast_S_S200 main_cst_6
  let main_v21 : IVec S200 1 := cmpf .olt main_v19 main_v20
  let main_c_7 : IVec S_ 1 := constantI S_ 1 1#1
  let main_v22 : IVec S_ 1 := (fun x v => Host.reduce IntOp.andi x v reducesTo_S200_S_d0 h_S_) main_v21 main_c_7
  let main_v23 : IVec S_ 1 := andi main_v18 main_v22
  let main_v24 : FVec F S16x50 .f32 := Host.absf main_arg6
  let main_cst_8 : FVec F S_ .f32 := constant S_ .f32 0x7F800000#32
  let main_v25 : FVec F S16x50 .f32 := broadcastInDim S16x50 ![] bcast_S_S16x50 main_cst_8
  let main_v26 : IVec S16x50 1 := cmpf .olt main_v24 main_v25
  let main_c_9 : IVec S_ 1 := constantI S_ 1 1#1
  let main_v27 : IVec S_ 1 := (fun x v => Host.reduce IntOp.andi x v reducesTo_S16x50_S_d0_1 h_S_) main_v26 main_c_9
  let main_v28 : IVec S_ 1 := andi main_v23 main_v27
  let main_v29 : FVec F S16 .f32 := Host.absf main_arg7
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  fn_part2 (F := F) main_arg0 main_v33

def fn {F : FTy → Type} [FloatOps F] (main_arg0 : IVec S4096x256 32) (main_arg1 : FVec F S16x10 .f32) (main_arg2 : FVec F S200x10 .f32) (main_arg3 : FVec F S200 .f32) (main_arg4 : FVec F S200x50 .f32) (main_arg5 : FVec F S200 .f32) (main_arg6 : FVec F S16x50 .f32) (main_arg7 : FVec F S16 .f32) : IVec S_ 1 :=
  let main_v0 : FVec F S16x10 .f32 := Host.absf main_arg1
  let main_cst : FVec F S_ .f32 := constant S_ .f32 0x7F800000#32
  let main_v1 : FVec F S16x10 .f32 := broadcastInDim S16x10 ![] bcast_S_S16x10 main_cst
  let main_v2 : IVec S16x10 1 := cmpf .olt main_v0 main_v1
  let main_c : IVec S_ 1 := constantI S_ 1 1#1
  let main_v3 : IVec S_ 1 := (fun x v => Host.reduce IntOp.andi x v reducesTo_S16x10_S_d0_1 h_S_) main_v2 main_c
  let main_v4 : FVec F S200x10 .f32 := Host.absf main_arg2
  let main_cst_0 : FVec F S_ .f32 := constant S_ .f32 0x7F800000#32
  let main_v5 : FVec F S200x10 .f32 := broadcastInDim S200x10 ![] bcast_S_S200x10 main_cst_0
  let main_v6 : IVec S200x10 1 := cmpf .olt main_v4 main_v5
  let main_c_1 : IVec S_ 1 := constantI S_ 1 1#1
  let main_v7 : IVec S_ 1 := (fun x v => Host.reduce IntOp.andi x v reducesTo_S200x10_S_d0_1 h_S_) main_v6 main_c_1
  let main_v8 : IVec S_ 1 := andi main_v3 main_v7
  let main_v9 : FVec F S200 .f32 := Host.absf main_arg3
  let main_cst_2 : FVec F S_ .f32 := constant S_ .f32 0x7F800000#32
  let main_v10 : FVec F S200 .f32 := broadcastInDim S200 ![] bcast_S_S200 main_cst_2
  let main_v11 : IVec S200 1 := cmpf .olt main_v9 main_v10
  let main_c_3 : IVec S_ 1 := constantI S_ 1 1#1
  let main_v12 : IVec S_ 1 := (fun x v => Host.reduce IntOp.andi x v reducesTo_S200_S_d0 h_S_) main_v11 main_c_3
  let main_v13 : IVec S_ 1 := andi main_v8 main_v12
  let main_v14 : FVec F S200x50 .f32 := Host.absf main_arg4
  let main_cst_4 : FVec F S_ .f32 := constant S_ .f32 0x7F800000#32
  let main_v15 : FVec F S200x50 .f32 := broadcastInDim S200x50 ![] bcast_S_S200x50 main_cst_4
  let main_v16 : IVec S200x50 1 := cmpf .olt main_v14 main_v15
  fn_part1 (F := F) main_arg0 main_arg5 main_arg6 main_arg7 main_v13 main_v16
-- ==== Kernel.lean ====
abbrev S4096x256 : Shape := ⟨2, ![4096, 256]⟩
abbrev S16x10 : Shape := ⟨2, ![16, 10]⟩
abbrev S200x10 : Shape := ⟨2, ![200, 10]⟩
abbrev S200 : Shape := ⟨1, ![200]⟩
abbrev S200x50 : Shape := ⟨2, ![200, 50]⟩
abbrev S16x50 : Shape := ⟨2, ![16, 50]⟩
abbrev S16 : Shape := ⟨1, ![16]⟩
abbrev S4096x1 : Shape := ⟨2, ![4096, 1]⟩
abbrev S4096 : Shape := ⟨1, ![4096]⟩
abbrev S4096x16 : Shape := ⟨2, ![4096, 16]⟩
abbrev S2048x1 : Shape := ⟨2, ![2048, 1]⟩
abbrev S2048x16 : Shape := ⟨2, ![2048, 16]⟩
abbrev S10x200 : Shape := ⟨2, ![10, 200]⟩
abbrev S16x200 : Shape := ⟨2, ![16, 200]⟩
abbrev S1x200 : Shape := ⟨2, ![1, 200]⟩
abbrev S16x150 : Shape := ⟨2, ![16, 150]⟩
abbrev S50x16 : Shape := ⟨2, ![50, 16]⟩
abbrev S16x16 : Shape := ⟨2, ![16, 16]⟩
abbrev S1x16 : Shape := ⟨2, ![1, 16]⟩

abbrev nBuf : Space → Nat
  | .hbm => 13
  | .vmem => 9
  | .smem => 0
  | _ => 0

abbrev bufTy : (tb : Table) → Fin (tcTables nBuf tb) → BufTy
  | .hbm, ⟨0, _⟩ => ⟨S4096x256, .i32⟩
  | .hbm, ⟨1, _⟩ => ⟨S16x10, .f32⟩
  | .hbm, ⟨2, _⟩ => ⟨S200x10, .f32⟩
  | .hbm, ⟨3, _⟩ => ⟨S200, .f32⟩
  | .hbm, ⟨4, _⟩ => ⟨S200x50, .f32⟩
  | .hbm, ⟨5, _⟩ => ⟨S200, .f32⟩
  | .hbm, ⟨6, _⟩ => ⟨S16x50, .f32⟩
  | .hbm, ⟨7, _⟩ => ⟨S16, .f32⟩
  | .hbm, ⟨8, _⟩ => ⟨S4096x1, .i32⟩
  | .hbm, ⟨9, _⟩ => ⟨S4096, .i32⟩
  | .hbm, ⟨10, _⟩ => ⟨S4096x1, .i32⟩
  | .hbm, ⟨11, _⟩ => ⟨S200, .f32⟩
  | .hbm, ⟨12, _⟩ => ⟨S4096x16, .f32⟩
  | .local _ .vmem, ⟨0, _⟩ => ⟨S2048x1, .i32⟩
  | .local _ .vmem, ⟨1, _⟩ => ⟨S2048x1, .i32⟩
  | .local _ .vmem, ⟨2, _⟩ => ⟨S16x10, .f32⟩
  | .local _ .vmem, ⟨3, _⟩ => ⟨S200x10, .f32⟩
  | .local _ .vmem, ⟨4, _⟩ => ⟨S200, .f32⟩
  | .local _ .vmem, ⟨5, _⟩ => ⟨S16x50, .f32⟩
  | .local _ .vmem, ⟨6, _⟩ => ⟨S16, .f32⟩
  | .local _ .vmem, ⟨7, _⟩ => ⟨S2048x16, .f32⟩
  | .local _ .vmem, ⟨8, _⟩ => ⟨S2048x16, .f32⟩
  | _, _ => ⟨S4096x256, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x10 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S200x10 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S200 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x50 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2048x16 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S4096x256_S4096x1_0_255 : S4096x256.Slices ![0, 255] S4096x1
  shapeCasts_S4096x1_S4096 : S4096x1.ShapeCasts S4096
  shapeCasts_S4096_S4096x1 : S4096.ShapeCasts S4096x1
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S16x10_S16x10_0_0 : ∀ a, (![0, 0] : Fin 2 → Nat) a + S16x10.size a ≤ S16x10.size a
  h_S16x10 : 0 < S16x10.numel
  inb_S200x10_S200x10_0_0 : ∀ a, (![0, 0] : Fin 2 → Nat) a + S200x10.size a ≤ S200x10.size a
  h_S200x10 : 0 < S200x10.numel
  inb_S200_S200_0 : ∀ a, (![0] : Fin 1 → Nat) a + S200.size a ≤ S200.size a
  h_S200 : 0 < S200.numel
  shapeCasts_S200_S200 : S200.ShapeCasts S200
  inb_S16x50_S16x50_0_0 : ∀ a, (![0, 0] : Fin 2 → Nat) a + S16x50.size a ≤ S16x50.size a
  h_S16x50 : 0 < S16x50.numel
  inb_S16_S16_0 : ∀ a, (![0] : Fin 1 → Nat) a + S16.size a ≤ S16.size a
  h_S16 : 0 < S16.numel
  transposes_S200x10_p1_0_S10x200 : S200x10.Transposes [1, 0] S10x200
  shapeCasts_S200_S1x200 : S200.ShapeCasts S1x200
  broadcasts_S1x200_S16x200 : S1x200.Broadcasts S16x200
  slices_S16x200_o0_0_S16x150 : S16x200.Slices ![0, 0] S16x150
  slices_S16x200_o0_150_S16x50 : S16x200.Slices ![0, 150] S16x50
  slices_S16x150_o0_0_S16x50 : S16x150.Slices ![0, 0] S16x50
  slices_S16x150_o0_100_S16x50 : S16x150.Slices ![0, 100] S16x50
  transposes_S16x50_p1_0_S50x16 : S16x50.Transposes [1, 0] S50x16
  shapeCasts_S16_S1x16 : S16.ShapeCasts S1x16
  broadcasts_S1x16_S16x16 : S1x16.Broadcasts S16x16
  iota_S2048x16_d1_w32 : S2048x16.Iotas .tc 32 [1]
  broadcasts_S2048x1_S2048x16 : S2048x1.Broadcasts S2048x16
  natLt_1_32 : 1 < 32
  inb_S2048x16_S2048x16_0_0 : ∀ a, (![0, 0] : Fin 2 → Nat) a + S2048x16.size a ≤ S2048x16.size a
  h_S2048x16 : 0 < S2048x16.numel
  dot_S16x10_S10x200_S16x200_1_0_0_1_n_n_wf : DotDims.WF S16x10 S10x200 S16x200 [1] [0] [0] [1] [] []
  dot_S16x50_S50x16_S16x16_1_0_0_1_n_n_wf : DotDims.WF S16x50 S50x16 S16x16 [1] [0] [0] [1] [] []
  dot_S2048x16_S16x16_S2048x16_1_0_0_1_n_n_wf : DotDims.WF S2048x16 S16x16 S2048x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1.size a ≤ S4096x1.size a
  hwx0_0 : ∀ i : grid0.Coords, EltTy.bits .i32 = 32 ∨ (Rect.block (s := S4096x1) S2048x1.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x10.size a ≤ S16x10.size a
  hwx0_1 : ∀ i : grid0.Coords, EltTy.bits .f32 = 32 ∨ (Rect.block (s := S16x10) S16x10.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S200x10.size a ≤ S200x10.size a
  hwx0_2 : ∀ i : grid0.Coords, EltTy.bits .f32 = 32 ∨ (Rect.block (s := S200x10) S200x10.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S200.size a ≤ S200.size a
  hwx0_3 : ∀ i : grid0.Coords, EltTy.bits .f32 = 32 ∨ (Rect.block (s := S200) S200.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16x50.size a ≤ S16x50.size a
  hwx0_4 : ∀ i : grid0.Coords, EltTy.bits .f32 = 32 ∨ (Rect.block (s := S16x50) S16x50.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S16.size a ≤ S16.size a
  hwx0_5 : ∀ i : grid0.Coords, EltTy.bits .f32 = 32 ∨ (Rect.block (s := S16) S16.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2048x16.size a ≤ S4096x16.size a
  hwx0_6 : ∀ i : grid0.Coords, EltTy.bits .f32 = 32 ∨ (Rect.block (s := S4096x16) S2048x16.size (cc0_transform_6 i) (hinb0_6 i)).WholeWords (EltTy.packing .f32)

variable [Facts₀]

def dot_S16x10_S10x200_S16x200_1_0_0_1_n_n : DotDims S16x10 S10x200 S16x200 where
  lhsContracting := [1]
  rhsContracting := [0]
  lhsNonContracting := [0]
  rhsNonContracting := [1]
  lhsBatch := []
  rhsBatch := []
  wf := dot_S16x10_S10x200_S16x200_1_0_0_1_n_n_wf
def dot_S16x50_S50x16_S16x16_1_0_0_1_n_n : DotDims S16x50 S50x16 S16x16 where
  lhsContracting := [1]
  rhsContracting := [0]
  lhsNonContracting := [0]
  rhsNonContracting := [1]
  lhsBatch := []
  rhsBatch := []
  wf := dot_S16x50_S50x16_S16x16_1_0_0_1_n_n_wf
def dot_S2048x16_S16x16_S2048x16_1_0_0_1_n_n : DotDims S2048x16 S16x16 S2048x16 where
  lhsContracting := [1]
  rhsContracting := [0]
  lhsNonContracting := [0]
  rhsNonContracting := [1]
  lhsBatch := []
  rhsBatch := []
  wf := dot_S2048x16_S16x16_S2048x16_1_0_0_1_n_n_wf

abbrev win0_0 : Pipeline.Window sig grid0 :=
  Pipeline.Window.ofSpec (Memref.whole main_v2) S2048x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x10.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S200x10.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S200.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S16x50.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S16.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S2048x16.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S4096x256 : Shape := ⟨2, ![4096, 256]⟩
abbrev S16x10 : Shape := ⟨2, ![16, 10]⟩
abbrev S200x10 : Shape := ⟨2, ![200, 10]⟩
abbrev S200 : Shape := ⟨1, ![200]⟩
abbrev S200x50 : Shape := ⟨2, ![200, 50]⟩
abbrev S16x50 : Shape := ⟨2, ![16, 50]⟩
abbrev S16 : Shape := ⟨1, ![16]⟩
abbrev S_ : Shape := ⟨0, ![]⟩
abbrev S4096x256x1 : Shape := ⟨3, ![4096, 256, 1]⟩
abbrev S4096x256x10 : Shape := ⟨3, ![4096, 256, 10]⟩
abbrev S4096x256x200 : Shape := ⟨3, ![4096, 256, 200]⟩
abbrev S1x1x200 : Shape := ⟨3, ![1, 1, 200]⟩
abbrev S4096x256x150 : Shape := ⟨3, ![4096, 256, 150]⟩
abbrev S4096x256x50 : Shape := ⟨3, ![4096, 256, 50]⟩
abbrev S4096x1x50 : Shape := ⟨3, ![4096, 1, 50]⟩
abbrev S4096x50 : Shape := ⟨2, ![4096, 50]⟩
abbrev S50x16 : Shape := ⟨2, ![50, 16]⟩
abbrev S4096x16 : Shape := ⟨2, ![4096, 16]⟩
abbrev S1x16 : Shape := ⟨2, ![1, 16]⟩

abbrev nBuf : Space → Nat
  | .hbm => 47
  | .vmem => 0
  | .smem => 0
  | _ => 0

abbrev bufTy : (tb : Table) → Fin (tcTables nBuf tb) → BufTy
  | .hbm, ⟨0, _⟩ => ⟨S4096x256, .i32⟩
  | .hbm, ⟨1, _⟩ => ⟨S16x10, .f32⟩
  | .hbm, ⟨2, _⟩ => ⟨S200x10, .f32⟩
  | .hbm, ⟨3, _⟩ => ⟨S200, .f32⟩
  | .hbm, ⟨4, _⟩ => ⟨S200x50, .f32⟩
  | .hbm, ⟨5, _⟩ => ⟨S200, .f32⟩
  | .hbm, ⟨6, _⟩ => ⟨S16x50, .f32⟩
  | .hbm, ⟨7, _⟩ => ⟨S16, .f32⟩
  | .hbm, ⟨8, _⟩ => ⟨S_, .i32⟩
  | .hbm, ⟨9, _⟩ => ⟨S4096x256, .i32⟩
  | .hbm, ⟨10, _⟩ => ⟨S4096x256, .i1⟩
  | .hbm, ⟨11, _⟩ => ⟨S_, .i32⟩
  | .hbm, ⟨12, _⟩ => ⟨S4096x256, .i32⟩
  | .hbm, ⟨13, _⟩ => ⟨S4096x256, .i32⟩
  | .hbm, ⟨14, _⟩ => ⟨S4096x256, .i32⟩
  | .hbm, ⟨15, _⟩ => ⟨S4096x256x1, .i32⟩
  | .hbm, ⟨16, _⟩ => ⟨S4096x256x10, .f32⟩
  | .hbm, ⟨17, _⟩ => ⟨S4096x256x200, .f32⟩
  | .hbm, ⟨18, _⟩ => ⟨S1x1x200, .f32⟩
  | .hbm, ⟨19, _⟩ => ⟨S4096x256x200, .f32⟩
  | .hbm, ⟨20, _⟩ => ⟨S4096x256x200, .f32⟩
  | .hbm, ⟨21, _⟩ => ⟨S1x1x200, .f32⟩
  | .hbm, ⟨22, _⟩ => ⟨S4096x256x200, .f32⟩
  | .hbm, ⟨23, _⟩ => ⟨S4096x256x200, .f32⟩
  | .hbm, ⟨24, _⟩ => ⟨S4096x256x150, .f32⟩
  | .hbm, ⟨25, _⟩ => ⟨S4096x256x150, .f32⟩
  | .hbm, ⟨26, _⟩ => ⟨S4096x256x150, .f32⟩
  | .hbm, ⟨27, _⟩ => ⟨S_, .f32⟩
  | .hbm, ⟨28, _⟩ => ⟨S4096x256x150, .f32⟩
  | .hbm, ⟨29, _⟩ => ⟨S4096x256x150, .f32⟩
  | .hbm, ⟨30, _⟩ => ⟨S_, .f32⟩
  | .hbm, ⟨31, _⟩ => ⟨S4096x256x150, .f32⟩
  | .hbm, ⟨32, _⟩ => ⟨S4096x256x150, .f32⟩
  | .hbm, ⟨33, _⟩ => ⟨S4096x256x50, .f32⟩
  | .hbm, ⟨34, _⟩ => ⟨S4096x256x50, .f32⟩
  | .hbm, ⟨35, _⟩ => ⟨S4096x256x50, .f32⟩
  | .hbm, ⟨36, _⟩ => ⟨S4096x256x50, .f32⟩
  | .hbm, ⟨37, _⟩ => ⟨S4096x256x50, .f32⟩
  | .hbm, ⟨38, _⟩ => ⟨S4096x256x50, .f32⟩
  | .hbm, ⟨39, _⟩ => ⟨S4096x256x50, .f32⟩
  | .hbm, ⟨40, _⟩ => ⟨S4096x1x50, .f32⟩
  | .hbm, ⟨41, _⟩ => ⟨S4096x50, .f32⟩
  | .hbm, ⟨42, _⟩ => ⟨S50x16, .f32⟩
  | .hbm, ⟨43, _⟩ => ⟨S4096x16, .f32⟩
  | .hbm, ⟨44, _⟩ => ⟨S1x16, .f32⟩
  | .hbm, ⟨45, _⟩ => ⟨S4096x16, .f32⟩
  | .hbm, ⟨46, _⟩ => ⟨S4096x16, .f32⟩
  | _, _ => ⟨S4096x256, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst : Ref sig .tc := ⟨.hbm, 27, rfl⟩
abbrev main_v17 : Ref sig .tc := ⟨.hbm, 28, rfl⟩
abbrev main_v18 : Ref sig .tc := ⟨.hbm, 29, rfl⟩
abbrev main_cst_1 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]

class Facts₀ : Prop where
  bcast_S_S4096x256 : S_.BroadcastsInDim S4096x256 (![] : Fin 0 → Fin S4096x256.rank)
  bcast_S4096x256_S4096x256x1_0_1 : S4096x256.BroadcastsInDim S4096x256x1 (![0, 1] : Fin 2 → Fin S4096x256x1.rank)
  bcast_S200_S1x1x200_2 : S200.BroadcastsInDim S1x1x200 (![2] : Fin 1 → Fin S1x1x200.rank)
  bcast_S1x1x200_S4096x256x200_0_1_2 : S1x1x200.BroadcastsInDim S4096x256x200 (![0, 1, 2] : Fin 3 → Fin S4096x256x200.rank)
  slices_S4096x256x200_S4096x256x150_0_0_0 : S4096x256x200.Slices ![0, 0, 0] S4096x256x150
  bcast_S_S4096x256x150 : S_.BroadcastsInDim S4096x256x150 (![] : Fin 0 → Fin S4096x256x150.rank)
  slices_S4096x256x200_S4096x256x50_0_0_150 : S4096x256x200.Slices ![0, 0, 150] S4096x256x50
  slices_S4096x256x150_S4096x256x50_0_0_0 : S4096x256x150.Slices ![0, 0, 0] S4096x256x50
  slices_S4096x256x150_S4096x256x50_0_0_100 : S4096x256x150.Slices ![0, 0, 100] S4096x256x50
  slices_S4096x256x50_S4096x1x50_0_255_0 : S4096x256x50.Slices ![0, 255, 0] S4096x1x50
  shapeCasts_S4096x1x50_S4096x50 : S4096x1x50.ShapeCasts S4096x50
  transposes_S16x50_S50x16_1_0 : S16x50.Transposes [1, 0] S50x16
  bcast_S16_S1x16_1 : S16.BroadcastsInDim S1x16 (![1] : Fin 1 → Fin S1x16.rank)
  bcast_S1x16_S4096x16_0_1 : S1x16.BroadcastsInDim S4096x16 (![0, 1] : Fin 2 → Fin S4096x16.rank)
  gather_S16x10_S4096x256x1_S4096x256x10_2_0_n_n_0_2_110_wf : GatherDims.WF S16x10 S4096x256x1 S4096x256x10 [2] [0] [] [0] [] 2 ![1, 10]
  dot_S4096x256x10_S200x10_S4096x256x200_2_1_01_0_n_n_wf : DotDims.WF S4096x256x10 S200x10 S4096x256x200 [2] [1] [0, 1] [0] [] []
  dot_S4096x50_S50x16_S4096x16_1_0_0_1_n_n_wf : DotDims.WF S4096x50 S50x16 S4096x16 [1] [0] [0] [1] [] []

variable [Facts₀]

def gather_S16x10_S4096x256x1_S4096x256x10_2_0_n_n_0_2_110 : GatherDims S16x10 S4096x256x1 S4096x256x10 where
  offsetDims := [2]
  collapsedSliceDims := [0]
  operandBatchingDims := []
  startIndicesBatchingDims := []
  startIndexMap := [0]
  indexVectorDim := 2
  sliceSizes := ![1, 10]
  wf := gather_S16x10_S4096x256x1_S4096x256x10_2_0_n_n_0_2_110_wf
def dot_S4096x256x10_S200x10_S4096x256x200_2_1_01_0_n_n : DotDims S4096x256x10 S200x10 S4096x256x200 where
  lhsContracting := [2]
  rhsContracting := [1]
  lhsNonContracting := [0, 1]
  rhsNonContracting := [0]
  lhsBatch := []
  rhsBatch := []
  wf := dot_S4096x256x10_S200x10_S4096x256x200_2_1_01_0_n_n_wf
def dot_S4096x50_S50x16_S4096x16_1_0_0_1_n_n : DotDims S4096x50 S50x16 S4096x16 where
  lhsContracting := [1]
  rhsContracting := [0]
  lhsNonContracting := [0]
  rhsNonContracting := [1]
  lhsBatch := []
  rhsBatch := []
  wf := dot_S4096x50_S50x16_S4096x16_1_0_0_1_n_n_wf

class Facts : Prop extends Facts₀ where

variable [Facts]
-- ==== Proof.LstmTable.lean ====
/-
  The mathematics both programs compute.

  A token id selects one of the 16 rows of an embedding table. The row e ↦ emb(v, e) goes through one step of an
  LSTM cell whose previous hidden and cell states are zero: with the preactivation
      p(v, f) = ∑ₑ emb(v, e) · w1(f, e) + bias(f)            (f < 200; bias is the sum of the two bias vectors),
  the input gate is σ(p(v, h)), the output gate σ(p(v, 100 + h)), the candidate tanh(p(v, 150 + h)) for h < 50
  (the forget gate multiplies the zero cell state and drops out), the hidden state is
      hid(v, h) = σ(p(v, 100 + h)) · tanh(σ(p(v, h)) · tanh(p(v, 150 + h))),
  and the output row is out(v, o) = ∑ₕ hid(v, h) · w_out(o, h) + b_out(o). The result at batch element b is the
  output row of the id in the LAST of the 256 time steps: result(b, o) = out(row(x(b, 255)), o).

  The id becomes a row number by being read as a signed integer and clamped into [0, 15] (`rowOf`). One program
  clamps the id word itself and selects the table's row by a sum against an indicator vector; the other adds 16 to
  a negative id and looks the row up, the lookup clamping. On a non-negative id both are `rowOf`.
-/
import Idealize.ShloMosaic.PureOps.Ideal
import Idealize.ShloMosaic.Lib.ValueIdx
import Idealize.ShloMosaic.Lib.StableHlo.Predicate

noncomputable section

open scoped BigOperators

namespace Cert.LstmTable

open Idealize.ShloMosaic Idealize.ShloMosaic.ValueIdx

/-! ## A token id as a row of the table -/

/-- The row a token id selects: the id read signed, clamped into [0, 15]. -/
def rowOf (w : BitVec 32) : Fin 16 := ⟨min w.toInt.toNat 15, by omega⟩

/-- A word's signed value from its unsigned one. -/
theorem toInt_cases (w : BitVec 32) :
    (w.toNat < 2147483648 ∧ w.toInt = (w.toNat : Int)) ∨ (2147483648 ≤ w.toNat ∧ w.toInt = (w.toNat : Int) - 4294967296) := by
  have h := BitVec.toInt_eq_toNat_cond w
  have hlt := w.isLt
  by_cases hc : 2 * w.toNat < 2 ^ 32
  · rw [if_pos hc] at h; left; exact ⟨by omega, h⟩
  · rw [if_neg hc] at h; right; exact ⟨by omega, by rw [h]; norm_num⟩

/-- Clamping the id WORD into [0, 15] — the larger of 0 and the id, then the smaller of 15 and that, both signed —
    gives the word of the id's row number. -/
theorem clip_eq (w : BitVec 32) : IntOp.minsi 15#32 (IntOp.maxsi 0#32 w) = BitVec.ofNat 32 (rowOf w).val := by
  apply BitVec.eq_of_toNat_eq
  have h15 : (15#32 : BitVec 32).toInt = 15 := by decide
  have h0 : (0#32 : BitVec 32).toInt = 0 := by decide
  have hr : (BitVec.ofNat 32 (rowOf w).val).toNat = (rowOf w).val := by
    rw [BitVec.toNat_ofNat]; exact Nat.mod_eq_of_lt (by have := (rowOf w).isLt; omega)
  rw [hr]
  show _ = min w.toInt.toNat 15
  unfold IntOp.minsi IntOp.maxsi
  rcases toInt_cases w with ⟨hlt, hi⟩ | ⟨hge, hi⟩
  · have hneg : ¬ (w.slt 0#32 = true) := by
      rw [BitVec.slt, decide_eq_true_eq, h0, hi]; omega
    rw [if_neg hneg]
    by_cases hbig : (15#32 : BitVec 32).slt w = true
    · rw [if_pos hbig]
      rw [BitVec.slt, decide_eq_true_eq, h15, hi] at hbig
      show 15 = _
      rw [hi]; omega
    · rw [if_neg hbig]
      rw [BitVec.slt, decide_eq_true_eq, h15, hi] at hbig
      rw [hi]; omega
  · have hneg : w.slt 0#32 = true := by
      rw [BitVec.slt, decide_eq_true_eq, h0, hi]; omega
    rw [if_pos hneg]
    have hnb : ¬ ((15#32 : BitVec 32).slt 0#32 = true) := by decide
    rw [if_neg hnb]
    show 0 = _
    rw [hi]; omega

/-- Column v of the indicator of a clamped id is set exactly when v is the id's row. -/
theorem onehot_iff (w : BitVec 32) (v : Fin 16) :
    IntOp.cmpi .eq (BitVec.ofNat 32 v.val) (IntOp.minsi 15#32 (IntOp.maxsi 0#32 w)) = 1#1 ↔ v = rowOf w := by
  rw [clip_eq, StableHlo.Predicate.cmpi_eq_iff]
  constructor
  · intro h
    have he := congrArg BitVec.toNat h
    rw [BitVec.toNat_ofNat, BitVec.toNat_ofNat, Nat.mod_eq_of_lt (by have := v.isLt; omega),
      Nat.mod_eq_of_lt (by have := (rowOf w).isLt; omega)] at he
    exact Fin.ext he
  · rintro rfl
    rfl

/-- A non-negative id is not below zero, so "add 16 where negative" leaves it alone. -/
theorem not_slt_zero_of_sge (w : BitVec 32) (h : IntOp.cmpi .sge w 0#32 = 1#1) : IntOp.cmpi .slt w 0#32 = 0#1 := by
  have h0 : (0#32 : BitVec 32).toInt = 0 := by decide
  have hle : (0#32 : BitVec 32).sle w = true := (StableHlo.Predicate.ofBool_eq_one_iff _).mp h
  rw [BitVec.sle, decide_eq_true_eq, h0] at hle
  have hf : w.slt 0#32 = false := by
    rw [BitVec.slt, decide_eq_false_iff_not, h0]; omega
  show BitVec.ofBool (w.slt 0#32) = 0#1
  rw [hf]; rfl

/-! ## The indicator as a number, and selection by it -/

/-- A one-bit condition widened to a word and converted to a float is 1 where set and 0 where clear. -/
theorem indicator (b : BitVec 1) :
    FloatOps.sitofp (F := Ideal) .f32 (b.setWidth 32) = if b = 1#1 then (1 : EReal) else 0 := by
  rcases BitVec.eq_zero_or_eq_one b with h | h
  · subst h; simp [Ideal.scalar_sitofp_def]
    show ((((0#1 : BitVec 1).setWidth 32).toInt : ℝ) : EReal) = 0
    have : ((0#1 : BitVec 1).setWidth 32).toInt = 0 := by decide
    rw [this]; simp
  · subst h
    show ((((1#1 : BitVec 1).setWidth 32).toInt : ℝ) : EReal) = if (1#1 : BitVec 1) = 1#1 then 1 else 0
    have : ((1#1 : BitVec 1).setWidth 32).toInt = 1 := by decide
    rw [this, if_pos rfl]; simp

/-- A sum against the indicator of row k picks out term k: 0 · y = 0 and 1 · y = y for EVERY extended real y, the
    infinities included, so nothing about the terms' finiteness is needed. -/
theorem sum_indicator (k : Fin 16) (t : Fin 16 → EReal) :
    ∑ v : Fin 16, (if v = k then (1 : EReal) else 0) * t v = t k := by
  simp [ite_mul, Finset.sum_ite_eq']

/-! ## The cell, and the result -/

section Cell

variable (emb : (⟨2, ![16, 10]⟩ : Shape).Idx → EReal) (w1 : (⟨2, ![200, 10]⟩ : Shape).Idx → EReal)
  (bias : (⟨1, ![200]⟩ : Shape).Idx → EReal) (wout : (⟨2, ![16, 50]⟩ : Shape).Idx → EReal)
  (bout : (⟨1, ![16]⟩ : Shape).Idx → EReal)

/-- The preactivation of table row v at gate column f. -/
def pre (v : Fin 16) (f : Fin 200) : EReal := (∑ e : Fin 10, emb (ix2 v e) * w1 (ix2 f e)) + bias (ix1 f)

/-- The hidden state of table row v: output gate times tanh of (input gate times candidate). -/
def hid (v : Fin 16) (h : Fin 50) : EReal :=
  Ideal.logistic (pre emb w1 bias v ⟨100 + h.val, by omega⟩)
    * Ideal.tanh (Ideal.logistic (pre emb w1 bias v ⟨h.val, by omega⟩) * Ideal.tanh (pre emb w1 bias v ⟨150 + h.val, by omega⟩))

/-- The output row of table row v. -/
def out (v : Fin 16) (o : Fin 16) : EReal := (∑ h : Fin 50, hid emb w1 bias v h * wout (ix2 o h)) + bout (ix1 o)

/-- THE RESULT: at batch element b, the output row of the id at the last time step. -/
def result (x : (⟨2, ![4096, 256]⟩ : Shape).Idx → BitVec 32) : (⟨2, ![4096, 16]⟩ : Shape).Idx → EReal :=
  fun j => out emb w1 bias wout bout (rowOf (x (ix2 (j 0) (255 : Fin 256)))) (j 1)

end Cell

end Cert.LstmTable

end
-- ==== Proof.LibPlainMatmul.lean ====
/-
  A plain matrix product read at one entry, on the extended reals.

  For the dimension numbers of an M×K by K×N product (left operand contracted on its second axis, right
  operand on its first, no batch axes), a `tpu.matmul` into the zero accumulator has at entry (a, b) the value
  ∑ₖ l(a, k) · r(k, b): the contraction index has one axis of extent K, so the sum over it is the sum over
  k : Fin K, and the two operand indices at (a, b) and k are (a, k) and (k, b).
-/
import Idealize.ShloMosaic.PureOps.Ideal.Laws
import Idealize.ShloMosaic.Lib.ValueIdx

noncomputable section

open scoped BigOperators

namespace Cert.LibPlainMatmul

open Idealize.ShloMosaic Idealize.ShloMosaic.ValueIdx

variable {φ₁ φ₂ : FTy}

/-- The left operand's index at output (a, b) and contraction coordinate k is (a, k). -/
theorem lhsIdx_plain (M K N : Nat) (a : Fin M) (b : Fin N) (k : Fin K) :
    (DotDims.plain M K N).lhsIdx (ix2 a b) ((contrEquiv1 (DotDims.plain M K N) K rfl rfl).symm k) = ix2 a k := by
  have hk := contrEquiv1_symm_val (DotDims.plain M K N) K rfl rfl k
  funext d
  refine Fin.ext ?_
  match d with
  | ⟨0, _⟩ =>
    show ((DotDims.plain M K N).lhsIdx (ix2 a b) _ (0 : Fin 2)).val = a.val
    unfold DotDims.lhsIdx
    rw [dif_neg (show ¬(0 : Fin 2) ∈ (DotDims.plain M K N).lhsBatch from List.not_mem_nil),
      dif_pos (show (0 : Fin 2) ∈ (DotDims.plain M K N).lhsNonContracting from List.mem_singleton.mpr rfl)]
    rfl
  | ⟨1, _⟩ =>
    exact ((DotDims.plain M K N).lhsIdx_val_of_single (cl := (1 : Fin 2)) rfl (ix2 a b) _).trans hk

/-- The right operand's index at output (a, b) and contraction coordinate k is (k, b). -/
theorem rhsIdx_plain (M K N : Nat) (a : Fin M) (b : Fin N) (k : Fin K) :
    (DotDims.plain M K N).rhsIdx (ix2 a b) ((contrEquiv1 (DotDims.plain M K N) K rfl rfl).symm k) = ix2 k b := by
  have hk := contrEquiv1_symm_val (DotDims.plain M K N) K rfl rfl k
  funext d
  refine Fin.ext ?_
  match d with
  | ⟨0, _⟩ =>
    exact ((DotDims.plain M K N).rhsIdx_val_of_single (cr := (0 : Fin 2)) rfl (ix2 a b) _).trans hk
  | ⟨1, _⟩ =>
    show ((DotDims.plain M K N).rhsIdx (ix2 a b) _ (1 : Fin 2)).val = b.val
    unfold DotDims.rhsIdx
    rw [dif_neg (show ¬(1 : Fin 2) ∈ (DotDims.plain M K N).rhsBatch from List.not_mem_nil),
      dif_pos (show (1 : Fin 2) ∈ (DotDims.plain M K N).rhsNonContracting from List.mem_singleton.mpr rfl)]
    rfl

/-- ENTRY (a, b) OF A PLAIN PRODUCT into the zero accumulator: ∑ₖ l(a, k) · r(k, b). -/
theorem matmul_zero_apply (M K N : Nat) (prec : Option ContractPrecision)
    (l : FVec Ideal ⟨2, ![M, K]⟩ φ₁) (r : FVec Ideal ⟨2, ![K, N]⟩ φ₂) (a : Fin M) (b : Fin N) :
    matmul (DotDims.plain M K N) prec l r (constant (F := Ideal) ⟨2, ![M, N]⟩ .f32 0x00000000#32) (ix2 a b)
      = ∑ k : Fin K, l (ix2 a k) * r (ix2 k b) := by
  simp only [matmul]
  rw [Ideal.matmul_constant_zero_apply, ← Equiv.sum_comp (contrEquiv1 (DotDims.plain M K N) K rfl rfl).symm]
  refine Finset.sum_congr rfl fun k _ => ?_
  rw [lhsIdx_plain, rhsIdx_plain]

end Cert.LibPlainMatmul

end
-- ==== Proof.KernelPayload.lean ====
/-
  The kernel body's stored value, entry by entry.

  The body builds, from the embedding table and the weights alone, the 16×16 table out(v, o) of the cell's output row
  for every table row v; builds from the block's 2048 ids the 2048×16 indicator matrix whose row r has a one in
  column row(id r) and zeros elsewhere; and stores their product. Entry (r, o) of the product is
  ∑ᵥ [v = row(id r)] · out(v, o) = out(row(id r), o).
-/
import proofs.«415446_j16922171146514_3_alg».proof.Proof.Gen.KernelIdeal.Skeleton
import proofs.«415446_j16922171146514_3_alg».proof.Proof.LstmTable
import proofs.«415446_j16922171146514_3_alg».proof.Proof.LibPlainMatmul
import Idealize.ShloMosaic.Lib.Pipeline.Value
import Idealize.ShloMosaic.Lib.ValueIdx
import Idealize.ShloMosaic.PureOps.Ideal.Laws

noncomputable section

open scoped BigOperators

namespace Cert.KernelIdeal.Payload

open Cert.KernelIdeal Cert.KernelIdeal.Gen Idealize.ShloMosaic Idealize.ShloMosaic.ValueIdx Cert.LstmTable

/-- The three products' dimension numbers are the plain M×K by K×N ones. -/
theorem dot1_plain : dot_S16x10_S10x200_S16x200_1_0_0_1_n_n = DotDims.plain 16 10 200 := rfl
theorem dot2_plain : dot_S16x50_S50x16_S16x16_1_0_0_1_n_n = DotDims.plain 16 50 16 := rfl
theorem dot3_plain : dot_S2048x16_S16x16_S2048x16_1_0_0_1_n_n = DotDims.plain 2048 16 16 := rfl

/-! ## The indicator matrix -/

/-- Entry (r, k) of the indicator matrix: 1 where k is the row of the block's r-th id, else 0. The id is clamped as a
    word, spread along the 16 columns, compared with the column number, and the bit converted to a float. -/
theorem indicator_entry (v0 : IVec S2048x1 32) (hc : S2048x1.ShapeCasts S2048x1) (hi : S2048x16.Iotas .tc 32 [1])
    (hb : S2048x1.Broadcasts S2048x16) (hw : 1 < 32) (r : Fin 2048) (k : Fin 16) :
    (sitofp .f32 (extui 32 (cmpi .eq (iota .tc S2048x16 32 [1] hi)
        (broadcastTo S2048x16 (minsi (broadcast S2048x1 15#32) (maxsi (broadcast S2048x1 0#32) (shapeCast S2048x1 v0 hc))) hb)) hw)
      : FVec Ideal S2048x16 .f32) (ix2 r k)
      = if k = rowOf (v0 (ix2 r (0 : Fin 1))) then (1 : EReal) else 0 := by
  rw [sitofp_apply, extui_apply, indicator]
  refine if_congr ?_ rfl rfl
  show IntOp.cmpi .eq (iota .tc S2048x16 32 [1] hi (ix2 r k)) (broadcastTo S2048x16 _ hb (ix2 r k)) = 1#1 ↔ _
  rw [iota_single_apply, broadcastTo_apply _ hb (ix2 r k) (ix2 r (0 : Fin 1)) (fun a => by
    match a with
    | ⟨0, _⟩ => rfl
    | ⟨1, _⟩ => rfl)]
  show IntOp.cmpi .eq (BitVec.ofNat 32 k.val)
      (IntOp.minsi 15#32 (IntOp.maxsi 0#32 (shapeCast S2048x1 v0 hc (ix2 r (0 : Fin 1))))) = 1#1 ↔ _
  rw [shapeCast_self]
  exact onehot_iff (v0 (ix2 r (0 : Fin 1))) k

/-! ## The table of output rows -/

/-- A lanewise tanh and a lanewise logistic at an entry are the functions of the entry. -/
theorem tanh_apply {s : Shape} (a : FVec Ideal s .f32) (i : s.Idx) : tanh a i = Ideal.tanh (a i) := rfl
theorem logistic_apply {s : Shape} (a : FVec Ideal s .f32) (i : s.Idx) : logistic a i = Ideal.logistic (a i) := rfl

/-- The preactivation table as the body computes it: the product of the embedding table with the transposed input
    weights, plus the bias row spread down the 16 rows. -/
abbrev preT (v6 : FVec Ideal S16x10 .f32) (v7 : FVec Ideal S200x10 .f32) (v8 : FVec Ideal S200 .f32)
    (hT : S200x10.Transposes [1, 0] S10x200) (hc0 : S200.ShapeCasts S200) (hc1 : S200.ShapeCasts S1x200)
    (hb : S1x200.Broadcasts S16x200) : FVec Ideal S16x200 .f32 :=
  addf (matmul dot_S16x10_S10x200_S16x200_1_0_0_1_n_n (some .fp32) v6 (transpose S10x200 [1, 0] v7 hT)
        (constant S16x200 .f32 0x00000000#32))
      (broadcastTo S16x200 (shapeCast S1x200 (shapeCast S200 v8 hc0) hc1) hb)

/-- Its entry (k, f) is the cell's preactivation of table row k at gate column f. -/
theorem pre_entry (v6 : FVec Ideal S16x10 .f32) (v7 : FVec Ideal S200x10 .f32) (v8 : FVec Ideal S200 .f32)
    (hT : S200x10.Transposes [1, 0] S10x200) (hc0 : S200.ShapeCasts S200) (hc1 : S200.ShapeCasts S1x200)
    (hb : S1x200.Broadcasts S16x200) (k : Fin 16) (f : Fin 200) :
    preT v6 v7 v8 hT hc0 hc1 hb (ix2 k f) = pre v6 v7 v8 k f := by
  show addf _ _ (ix2 k f) = _
  rw [addf_apply, dot1_plain, LibPlainMatmul.matmul_zero_apply]
  unfold pre
  congr 1
  · refine Finset.sum_congr rfl fun e _ => ?_
    rw [transpose_apply [1, 0] v7 hT (ix2 e f) (ix2 f e) (fun b => by
      match b with
      | ⟨0, _⟩ => rfl
      | ⟨1, _⟩ => rfl)]
  · rw [broadcastTo_apply _ hb (ix2 k f) (ix2 (0 : Fin 1) f) (fun a => by
      match a with
      | ⟨0, _⟩ => rfl
      | ⟨1, _⟩ => rfl)]
    rw [shapeCast_apply _ hc1 (ix2 (0 : Fin 1) f) (ix1 f) (by
      rw [Shape.rowMajor_val_one, Shape.rowMajor_val_two]; simp)]
    rw [shapeCast_self]

/-- The hidden-state table as the body computes it from a preactivation table p. The three gates are column ranges
    of p: the input gate columns 0–49 and the output gate columns 100–149 of the logistic of p's first 150 columns,
    the candidate the tanh of columns 150–199. -/
abbrev hidT (p : FVec Ideal S16x200 .f32) (hs150 : S16x200.Slices ![0, 0] S16x150)
    (hs50 : S16x200.Slices ![0, 150] S16x50) (hi : S16x150.Slices ![0, 0] S16x50) (ho : S16x150.Slices ![0, 100] S16x50) :
    FVec Ideal S16x50 .f32 :=
  mulf (extractStridedSlice S16x50 ![0, 100] (logistic (extractStridedSlice S16x150 ![0, 0] p hs150)) ho)
    (tanh (mulf (extractStridedSlice S16x50 ![0, 0] (logistic (extractStridedSlice S16x150 ![0, 0] p hs150)) hi)
      (tanh (extractStridedSlice S16x50 ![0, 150] p hs50))))

/-- Its entry (k, h), in the entries of p. -/
theorem hid_entry (p : FVec Ideal S16x200 .f32) (hs150 : S16x200.Slices ![0, 0] S16x150)
    (hs50 : S16x200.Slices ![0, 150] S16x50) (hi : S16x150.Slices ![0, 0] S16x50) (ho : S16x150.Slices ![0, 100] S16x50)
    (k : Fin 16) (h : Fin 50) :
    hidT p hs150 hs50 hi ho (ix2 k h)
      = Ideal.logistic (p (ix2 k (⟨100 + h.val, by omega⟩ : Fin 200)))
          * Ideal.tanh (Ideal.logistic (p (ix2 k (⟨h.val, by omega⟩ : Fin 200)))
              * Ideal.tanh (p (ix2 k (⟨150 + h.val, by omega⟩ : Fin 200)))) := by
  show mulf _ _ (ix2 k h) = _
  rw [mulf_apply, tanh_apply, mulf_apply, tanh_apply]
  rw [extractStridedSlice_apply ![0, 100] _ ho (ix2 k h) (ix2 k (⟨100 + h.val, by omega⟩ : Fin 150)) (fun a => by
      match a with
      | ⟨0, _⟩ => exact (Nat.zero_add _).symm
      | ⟨1, _⟩ => rfl),
    extractStridedSlice_apply ![0, 0] _ hi (ix2 k h) (ix2 k (⟨h.val, by omega⟩ : Fin 150)) (fun a => by
      match a with
      | ⟨0, _⟩ => exact (Nat.zero_add _).symm
      | ⟨1, _⟩ => exact (Nat.zero_add _).symm),
    extractStridedSlice_apply ![0, 150] p hs50 (ix2 k h) (ix2 k (⟨150 + h.val, by omega⟩ : Fin 200)) (fun a => by
      match a with
      | ⟨0, _⟩ => exact (Nat.zero_add _).symm
      | ⟨1, _⟩ => rfl)]
  rw [logistic_apply, logistic_apply]
  rw [extractStridedSlice_apply ![0, 0] p hs150 (ix2 k (⟨100 + h.val, by omega⟩ : Fin 150)) (ix2 k (⟨100 + h.val, by omega⟩ : Fin 200)) (fun a => by
      match a with
      | ⟨0, _⟩ => exact (Nat.zero_add _).symm
      | ⟨1, _⟩ => exact (Nat.zero_add _).symm),
    extractStridedSlice_apply ![0, 0] p hs150 (ix2 k (⟨h.val, by omega⟩ : Fin 150)) (ix2 k (⟨h.val, by omega⟩ : Fin 200)) (fun a => by
      match a with
      | ⟨0, _⟩ => exact (Nat.zero_add _).symm
      | ⟨1, _⟩ => exact (Nat.zero_add _).symm)]

/-- The table of output rows as the body computes it: the hidden-state table times the transposed output weights,
    plus the output bias spread down the 16 rows. -/
abbrev outT (hd : FVec Ideal S16x50 .f32) (v10 : FVec Ideal S16x50 .f32) (v11 : FVec Ideal S16 .f32)
    (hT : S16x50.Transposes [1, 0] S50x16) (hc : S16.ShapeCasts S1x16) (hb : S1x16.Broadcasts S16x16) :
    FVec Ideal S16x16 .f32 :=
  addf (matmul dot_S16x50_S50x16_S16x16_1_0_0_1_n_n (some .fp32) hd (transpose S50x16 [1, 0] v10 hT)
        (constant S16x16 .f32 0x00000000#32))
      (broadcastTo S16x16 (shapeCast S1x16 v11 hc) hb)

/-- Its entry (k, o), in the entries of the hidden-state table. -/
theorem outT_entry (hd : FVec Ideal S16x50 .f32) (v10 : FVec Ideal S16x50 .f32) (v11 : FVec Ideal S16 .f32)
    (hT : S16x50.Transposes [1, 0] S50x16) (hc : S16.ShapeCasts S1x16) (hb : S1x16.Broadcasts S16x16) (k o : Fin 16) :
    outT hd v10 v11 hT hc hb (ix2 k o) = (∑ h : Fin 50, hd (ix2 k h) * v10 (ix2 o h)) + v11 (ix1 o) := by
  show addf _ _ (ix2 k o) = _
  rw [addf_apply, dot2_plain, LibPlainMatmul.matmul_zero_apply]
  congr 1
  · refine Finset.sum_congr rfl fun h _ => ?_
    rw [transpose_apply [1, 0] v10 hT (ix2 h o) (ix2 o h) (fun b => by
      match b with
      | ⟨0, _⟩ => rfl
      | ⟨1, _⟩ => rfl)]
  · rw [broadcastTo_apply _ hb (ix2 k o) (ix2 (0 : Fin 1) o) (fun a => by
      match a with
      | ⟨0, _⟩ => rfl
      | ⟨1, _⟩ => rfl)]
    rw [shapeCast_apply _ hc (ix2 (0 : Fin 1) o) (ix1 o) (by
      rw [Shape.rowMajor_val_one, Shape.rowMajor_val_two]; simp)]

/-- Entry (k, o) of the body's table of output rows is the cell's output out(k, o). -/
theorem table_entry (v6 : FVec Ideal S16x10 .f32) (v7 : FVec Ideal S200x10 .f32) (v8 : FVec Ideal S200 .f32)
    (v10 : FVec Ideal S16x50 .f32) (v11 : FVec Ideal S16 .f32)
    (hT : S200x10.Transposes [1, 0] S10x200) (hc0 : S200.ShapeCasts S200) (hc1 : S200.ShapeCasts S1x200)
    (hb : S1x200.Broadcasts S16x200) (hs150 : S16x200.Slices ![0, 0] S16x150)
    (hs50 : S16x200.Slices ![0, 150] S16x50) (hi : S16x150.Slices ![0, 0] S16x50) (ho : S16x150.Slices ![0, 100] S16x50)
    (hT' : S16x50.Transposes [1, 0] S50x16) (hc : S16.ShapeCasts S1x16) (hb' : S1x16.Broadcasts S16x16) (k o : Fin 16) :
    outT (hidT (preT v6 v7 v8 hT hc0 hc1 hb) hs150 hs50 hi ho) v10 v11 hT' hc hb' (ix2 k o)
      = out v6 v7 v8 v10 v11 k o := by
  rw [outT_entry]
  unfold out
  congr 1
  refine Finset.sum_congr rfl fun h _ => ?_
  rw [hid_entry, pre_entry, pre_entry, pre_entry]
  rfl

/-! ## The stored value -/

/-- ENTRY (r, o) OF THE STORED BLOCK: the indicator matrix times the table of output rows, which is the output row
    of the r-th id's table row. -/
theorem pay_entry (v0 : Vec Ideal S2048x1 .i32) (v6 : Vec Ideal S16x10 .f32) (v7 : Vec Ideal S200x10 .f32)
    (v8 : Vec Ideal S200 .f32) (v10 : Vec Ideal S16x50 .f32) (v11 : Vec Ideal S16 .f32) (r : Fin 2048) (o : Fin 16) :
    k0_pay1 (F := Ideal) v0 v6 v7 v8 v10 v11 (ix2 r o)
      = out v6 v7 v8 v10 v11 (rowOf (v0 (ix2 r (0 : Fin 1)))) o := by
  unfold k0_pay1
  dsimp only
  rw [dot3_plain, LibPlainMatmul.matmul_zero_apply]
  refine (Finset.sum_congr rfl fun k _ => ?_).trans
    (sum_indicator (rowOf (v0 (ix2 r (0 : Fin 1)))) (fun k => out v6 v7 v8 v10 v11 k o))
  exact congrArg₂ (· * ·) (indicator_entry v0 _ _ _ _ r k)
    (table_entry v6 v7 v8 v10 v11 _ _ _ _ _ _ _ _ _ _ _ k o)

end Cert.KernelIdeal.Payload

end
-- ==== Proof.KernelValue.lean ====
/-
  What the kernel program leaves in its result array.

  The 4096 batch elements are cut into two blocks of 2048; grid point t stages block t of the last-time-step ids
  (a 4096×1 array the host operations before the call cut out of the 4096×256 id array), the whole embedding table,
  the whole input weights, the whole bias sum (which the host operations before the call add up), the whole output
  weights and output bias, and writes block t of the 4096×16 result. Each block it writes is the block of ONE
  function of the argument arrays, `LstmTable.result`; the two blocks tile the result array; so the array ends
  holding that function.
-/
import proofs.«415446_j16922171146514_3_alg».proof.Proof.Gen.KernelIdeal.Value
import proofs.«415446_j16922171146514_3_alg».proof.Proof.KernelPayload
import Idealize.ShloMosaic.Lib.StableHlo.Run
import Idealize.ShloMosaic.Lib.Pipeline.Value

noncomputable section

namespace Cert.KernelIdeal.Whole

open Cert.KernelIdeal Cert.KernelIdeal.Gen Idealize.ShloMosaic Idealize.ShloMosaic.TcCoe Idealize.SL.Sem
open Idealize.ShloMosaic.ValueIdx Cert.LstmTable
open Idealize.ShloMosaic.Pipeline (Dat)

variable (m : (ℓ : Loc nD τ sig) → Buf (Elt Ideal) ℓ) (ρ : Dev nD → PrngReg)

/-- The sum of the two bias vectors. -/
abbrev biasSum (c : Dev nD) : FVec Ideal S200 .f32 :=
  addf (m ((c : Thread nD τ).loc main_arg3) : FVec Ideal S200 .f32) (m ((c : Thread nD τ).loc main_arg5) : FVec Ideal S200 .f32)

/-- The result array as one function of the argument arrays: the cell's output row of each batch element's last id,
    with the two bias vectors added. -/
abbrev G (c : Dev nD) : S4096x16.Idx → EReal :=
  result (m ((c : Thread nD τ).loc main_arg1)) (m ((c : Thread nD τ).loc main_arg2))
    (biasSum m c)
    (m ((c : Thread nD τ).loc main_arg6)) (m ((c : Thread nD τ).loc main_arg7)) (m ((c : Thread nD τ).loc main_arg0))

/-! ## The arrays the call finds -/

/-- The bias array the call stages is the sum of the two bias vectors. -/
theorem V_bias (c : Dev nD) :
    (V m c main_v3 : S200.Idx → EReal) = biasSum m c := by
  dsimp only [Gen.V, Gen.hostOps0]
  after_results

/-- The id array the call stages holds, at (b, 0), the id of batch element b at the last time step: the column-255
    slice of the id array, flattened and given back its unit axis. -/
theorem V_ids (c : Dev nD) (b : Fin 4096) :
    (V m c main_v2 : S4096x1.Idx → BitVec 32) (ix2 b (0 : Fin 1)) = m ((c : Thread nD τ).loc main_arg0) (ix2 b (255 : Fin 256)) := by
  have e : (V m c main_v2 : S4096x1.Idx → BitVec 32)
      = shapeCast S4096x1 (shapeCast S4096 (extractStridedSlice S4096x1 ![0, 255] (m ((c : Thread nD τ).loc main_arg0))
          Facts₀.slices_S4096x256_S4096x1_0_255) Facts₀.shapeCasts_S4096x1_S4096) Facts₀.shapeCasts_S4096_S4096x1 := by
    dsimp only [Gen.V, Gen.hostOps0]
    after_results
    rfl
  rw [e]
  rw [shapeCast_apply _ _ (ix2 b (0 : Fin 1)) (ix1 b) (by
    rw [Shape.rowMajor_val_one, Shape.rowMajor_val_two]; simp)]
  rw [shapeCast_apply _ _ (ix1 b) (ix2 b (0 : Fin 1)) (by
    rw [Shape.rowMajor_val_one, Shape.rowMajor_val_two]; simp)]
  rw [extractStridedSlice_apply ![0, 255] _ _ (ix2 b (0 : Fin 1)) (ix2 b (255 : Fin 256)) (fun a => by
    match a with
    | ⟨0, _⟩ => exact (Nat.zero_add _).symm
    | ⟨1, _⟩ => rfl)]

/-! ## Which block each window stages at a point -/

theorem hz2 : (![0, 0] : Fin 2 → Nat) = fun _ => 0 := funext fun a => by fin_cases a <;> rfl
theorem hz1 : (![0] : Fin 1 → Nat) = fun _ => 0 := funext fun a => by fin_cases a <;> rfl

/-- The printed index maps, decided over the two grid points: the id window and the result window are at block
    (t, 0); every other window is at its one block. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = t.val ∧ win0_6.index t (1 : Fin 2) = 0 :=
  (by decide +kernel : ∀ t : Fin grid0.N, _)

/-- The six staged blocks at point t, at their literal types. -/
abbrev idBlk (c : Dev nD) (t : Fin cfg0.N) : Vec Ideal S2048x1 .i32 := iblk m c 0 t
abbrev embBlk (c : Dev nD) (t : Fin cfg0.N) : Vec Ideal S16x10 .f32 := iblk m c 1 t
abbrev w1Blk (c : Dev nD) (t : Fin cfg0.N) : Vec Ideal S200x10 .f32 := iblk m c 2 t
abbrev biasBlk (c : Dev nD) (t : Fin cfg0.N) : Vec Ideal S200 .f32 := iblk m c 3 t
abbrev woutBlk (c : Dev nD) (t : Fin cfg0.N) : Vec Ideal S16x50 .f32 := iblk m c 4 t
abbrev boutBlk (c : Dev nD) (t : Fin cfg0.N) : Vec Ideal S16 .f32 := iblk m c 5 t

/-- The embedding table's one block is the table. -/
theorem embBlk_eq (c : Dev nD) (t : Fin cfg0.N) : embBlk m c t = m ((c : Thread nD τ).loc main_arg1) := by
  obtain ⟨_, _, e0, e1, _⟩ := idx_facts t
  funext y
  show V m c main_arg1 (((cfg0.win 1).blk t).view.emb y) = _
  rw [V_main_arg1]
  refine congrArg _ (funext fun a => Fin.ext ?_)
  match a with
  | ⟨0, _⟩ => show win0_1.index t (0 : Fin 2) * 16 + 1 * (y 0).val = (y 0).val; omega
  | ⟨1, _⟩ => show win0_1.index t (1 : Fin 2) * 10 + 1 * (y 1).val = (y 1).val; omega

/-- The input weights' one block is the weight array. -/
theorem w1Blk_eq (c : Dev nD) (t : Fin cfg0.N) : w1Blk m c t = m ((c : Thread nD τ).loc main_arg2) := by
  obtain ⟨_, _, _, _, e0, e1, _⟩ := idx_facts t
  funext y
  show V m c main_arg2 (((cfg0.win 2).blk t).view.emb y) = _
  rw [V_main_arg2]
  refine congrArg _ (funext fun a => Fin.ext ?_)
  match a with
  | ⟨0, _⟩ => show win0_2.index t (0 : Fin 2) * 200 + 1 * (y 0).val = (y 0).val; omega
  | ⟨1, _⟩ => show win0_2.index t (1 : Fin 2) * 10 + 1 * (y 1).val = (y 1).val; omega

/-- The bias window's one block is the sum of the two bias vectors. -/
theorem biasBlk_eq (c : Dev nD) (t : Fin cfg0.N) :
    biasBlk m c t = biasSum m c := by
  obtain ⟨_, _, _, _, _, _, e0, _⟩ := idx_facts t
  funext y
  show (V m c main_v3 : S200.Idx → EReal) (((cfg0.win 3).blk t).view.emb y) = _
  rw [V_bias]
  refine congrArg _ (funext fun a => Fin.ext ?_)
  match a with
  | ⟨0, _⟩ => show win0_3.index t (0 : Fin 1) * 200 + 1 * (y 0).val = (y 0).val; omega

/-- The output weights' one block is the weight array. -/
theorem woutBlk_eq (c : Dev nD) (t : Fin cfg0.N) : woutBlk m c t = m ((c : Thread nD τ).loc main_arg6) := by
  obtain ⟨_, _, _, _, _, _, _, e0, e1, _⟩ := idx_facts t
  funext y
  show V m c main_arg6 (((cfg0.win 4).blk t).view.emb y) = _
  rw [V_main_arg6]
  refine congrArg _ (funext fun a => Fin.ext ?_)
  match a with
  | ⟨0, _⟩ => show win0_4.index t (0 : Fin 2) * 16 + 1 * (y 0).val = (y 0).val; omega
  | ⟨1, _⟩ => show win0_4.index t (1 : Fin 2) * 50 + 1 * (y 1).val = (y 1).val; omega

/-- The output bias's one block is the bias vector. -/
theorem boutBlk_eq (c : Dev nD) (t : Fin cfg0.N) : boutBlk m c t = m ((c : Thread nD τ).loc main_arg7) := by
  obtain ⟨_, _, _, _, _, _, _, _, _, e0, _⟩ := idx_facts t
  funext y
  show V m c main_arg7 (((cfg0.win 5).blk t).view.emb y) = _
  rw [V_main_arg7]
  refine congrArg _ (funext fun a => Fin.ext ?_)
  match a with
  | ⟨0, _⟩ => show win0_5.index t (0 : Fin 1) * 16 + 1 * (y 0).val = (y 0).val; omega

/-- Row r of the id block at point t is the last-time-step id of batch element 2048·t + r. -/
theorem idBlk_entry (c : Dev nD) (t : Fin cfg0.N) (r : Fin 2048) (hb : 2048 * t.val + r.val < 4096) :
    idBlk m c t (ix2 r (0 : Fin 1))
      = m ((c : Thread nD τ).loc main_arg0) (ix2 (⟨2048 * t.val + r.val, hb⟩ : Fin 4096) (255 : Fin 256)) := by
  obtain ⟨e0, e1, _⟩ := idx_facts t
  show (V m c main_v2 : S4096x1.Idx → BitVec 32) (((cfg0.win 0).blk t).view.emb (ix2 r (0 : Fin 1))) = _
  have he : ((cfg0.win 0).blk t).view.emb (ix2 r (0 : Fin 1)) = ix2 (⟨2048 * t.val + r.val, hb⟩ : Fin 4096) (0 : Fin 1) := by
    funext a; apply Fin.ext
    match a with
    | ⟨0, _⟩ => show win0_0.index t (0 : Fin 2) * 2048 + 1 * r.val = 2048 * t.val + r.val; omega
    | ⟨1, _⟩ => show win0_0.index t (1 : Fin 2) * 1 + 1 * 0 = 0; omega
  rw [he, V_ids]

/-! ## Block t of the result, the cover, and the array after the run -/

/-- Entry (r, o) of the result window's block at point t is entry (2048·t + r, o) of the array. -/
theorem resBlk_emb (t : Fin cfg0.N) (r : Fin 2048) (o : Fin 16) (hb : 2048 * t.val + r.val < 4096) :
    ((cfg0.win 6).blk t).view.emb (ix2 r o) = ix2 (⟨2048 * t.val + r.val, hb⟩ : Fin 4096) o := by
  obtain ⟨_, _, _, _, _, _, _, _, _, _, e0, e1⟩ := idx_facts t
  funext a; apply Fin.ext
  match a with
  | ⟨0, _⟩ => show win0_6.index t (0 : Fin 2) * 2048 + 1 * r.val = 2048 * t.val + r.val; omega
  | ⟨1, _⟩ => show win0_6.index t (1 : Fin 2) * 16 + 1 * o.val = o.val; omega

/-- WHAT POINT t WRITES BACK is block t of `G`: the stored block's entry (r, o) is the output row of the r-th staged
    id, the staged id is the last-time-step id of batch element 2048·t + r, and the other staged blocks are the whole
    argument arrays. -/
theorem flushed6_eq (c : Dev nD) (t : Fin cfg0.N) :
    (dats m 0 c).flushed 6 t = ((cfg0.win 6).blk t).view.read (Elt Ideal) (G m c) := by
  rw [Value.flushed6]
  unfold out0_6
  rw [View.canon_unit_zero hz2]
  simp only [View.ld_unit_zero (S := S2048x1) hz2, View.ld_unit_zero (S := S16x10) hz2, View.ld_unit_zero (S := S200x10) hz2,
    View.ld_unit_zero (S := S200) hz1, View.ld_unit_zero (S := S16x50) hz2, View.ld_unit_zero (S := S16) hz1]
  funext j
  obtain ⟨r, o, rfl⟩ : ∃ (r : Fin 2048) (o : Fin 16), j = ix2 r o := ⟨j 0, j 1, eq_ix2 j⟩
  have ht : t.val < 2 := t.isLt
  have hb : 2048 * t.val + r.val < 4096 := by have := r.isLt; omega
  show k0_pay1 (F := Ideal) (idBlk m c t) (embBlk m c t) (w1Blk m c t) (biasBlk m c t) (woutBlk m c t) (boutBlk m c t) (ix2 r o)
      = G m c (((cfg0.win 6).blk t).view.emb (ix2 r o))
  rw [Payload.pay_entry, embBlk_eq, w1Blk_eq, biasBlk_eq, woutBlk_eq, boutBlk_eq, idBlk_entry m c t r hb, resBlk_emb t r o hb]
  rfl

/-- An index of the result array is in point t's block iff each coordinate is in the block's range on its axis. -/
theorem mem_blk6 (t : Fin cfg0.N) (i : S4096x16.Idx) :
    i ∈ ((cfg0.win 6).blk t).view.set ↔ ∀ a : Fin 2, win0_6.index t a * S2048x16.size a ≤ (i a).val ∧ (i a).val < win0_6.index t a * S2048x16.size a + S2048x16.size a := by
  show i ∈ ((View.whole main_v4).slice (win0_6.rect t)).set ↔ _
  rw [View.set_slice_whole, Rect.mem_set_unit]
  exact Iff.rfl

/-- Each of the two block rows is some point's. -/
theorem idx_onto6 : ∀ q : Fin 2, ∃ t : Fin cfg0.N, win0_6.index t = ![q.val, 0] :=
  (by decide +kernel : ∀ q : Fin 2, ∃ t : Fin grid0.N, win0_6.index t = ![q.val, 0])

/-- THE COVER: batch element b lies in the block of point b / 2048, so the two blocks tile the result array. -/
theorem cover6 (i : S4096x16.Idx) : ∃ t : Fin cfg0.N, (cfg0.win 6).flush t = true ∧ i ∈ ((cfg0.win 6).blk t).view.set := by
  have hi0 : (i 0).val < 4096 := (i 0).isLt
  have hi1 : (i 1).val < 16 := (i 1).isLt
  obtain ⟨t, ht⟩ := idx_onto6 ⟨(i 0).val / 2048, by omega⟩
  have q0 : win0_6.index t (0 : Fin 2) = (i 0).val / 2048 := congrFun ht 0
  have q1 : win0_6.index t (1 : Fin 2) = 0 := congrFun ht 1
  refine ⟨t, flush0_6 t, ?_⟩
  rw [mem_blk6]
  intro a
  match a with
  | ⟨0, _⟩ => show win0_6.index t (0 : Fin 2) * 2048 ≤ (i 0).val ∧ (i 0).val < win0_6.index t (0 : Fin 2) * 2048 + 2048; omega
  | ⟨1, _⟩ => show win0_6.index t (1 : Fin 2) * 16 ≤ (i 1).val ∧ (i 1).val < win0_6.index t (1 : Fin 2) * 16 + 16; omega

/-- THE RESULT ARRAY after the run is `G` of the argument arrays. -/
theorem final6 (c : Dev nD) : (dats m 0 c).arrAt 6 cfg0.N = G m c :=
  (dats m 0 c).arrAt_eq_of_cover 6 (G m c) (fun t _ => flushed6_eq m c t) cover6

/-- The kernel program's run, re-posted: the result array at `G` of the arguments, the arguments unchanged. -/
theorem run : θ_run defs (onTc (τ := τ) (main (F := Ideal))) ⟨m, fun _ => 0, ρ⟩ fun r => ∀ c : Dev nD,
      r.2.mem ((c : Thread nD τ).loc main_v4) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final6 m c), (h c).2⟩) (Value.run_blocks m ρ)

end Cert.KernelIdeal.Whole

end
-- ==== Proof.LibGatherRows.lean ====
/-
  A lookup of table rows, `table[ids]`, read at one entry.

  For a table of N rows and D columns and an R×C array of row numbers (carried as R×C×1 start indices), the
  gather with offset axis 2, collapsed operand axis 0, start-index map [0], index-vector axis 2 and slice
  sizes [1, D] has at (b, t, e) the table's entry at row `ids[b, t]` — read as a signed integer and clamped
  into [0, N − 1], as every start index of a gather is — and column e. Axis 0 of the operand is collapsed, so
  it carries only the clamped start; axis 1 is not in the start-index map, so it carries only the result's
  offset coordinate e.
-/
import Idealize.ShloMosaic.Lib.ValueIdx

noncomputable section

namespace Cert.LibGatherRows

open Idealize.ShloMosaic Idealize.ShloMosaic.ValueIdx

variable {α : Type}

/-- Those dimension numbers, for a table [N, D], start indices [R, C, 1] and a result [R, C, D]. -/
abbrev rowsDims (N D R C : Nat)
    (wf : GatherDims.WF ⟨2, ![N, D]⟩ ⟨3, ![R, C, 1]⟩ ⟨3, ![R, C, D]⟩ [2] [0] [] [0] [] 2 ![1, D]) :
    GatherDims ⟨2, ![N, D]⟩ ⟨3, ![R, C, 1]⟩ ⟨3, ![R, C, D]⟩ where
  offsetDims := [2]
  collapsedSliceDims := [0]
  operandBatchingDims := []
  startIndicesBatchingDims := []
  startIndexMap := [0]
  indexVectorDim := 2
  sliceSizes := ![1, D]
  wf := wf

/-- THE LOOKUP READ AT (b, t, e): the table at the clamped row number `ids[b, t, 0]` and column e. -/
theorem gather_rows_apply {N D R C w : Nat} (hN : 0 < N)
    (wf : GatherDims.WF ⟨2, ![N, D]⟩ ⟨3, ![R, C, 1]⟩ ⟨3, ![R, C, D]⟩ [2] [0] [] [0] [] 2 ![1, D])
    (x : (⟨2, ![N, D]⟩ : Shape).Idx → α) (ids : IVec ⟨3, ![R, C, 1]⟩ w) (b : Fin R) (t : Fin C) (e : Fin D) :
    Host.gather (rowsDims N D R C wf) x ids (ix3 b t e)
      = x (ix2 ⟨min (ids (ix3 b t (0 : Fin 1))).toInt.toNat (N - 1), by omega⟩ e) := by
  unfold Host.gather
  congr 1
  funext a
  refine Fin.ext ?_
  match a with
  | ⟨0, _⟩ =>
    show (rowsDims N D R C wf).start (ix3 b t e) ids 0 + (rowsDims N D R C wf).batchCoord (ix3 b t e) 0
        + (rowsDims N D R C wf).offCoord (ix3 b t e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N D R C wf).startIndexMap from List.mem_singleton.mpr rfl)]
    have hsi : (rowsDims N D R C wf).siIdx (ix3 b t e) ⟨List.idxOf (0 : Fin 2) (rowsDims N D R C wf).startIndexMap,
        List.idxOf_lt_length_iff.2 (List.mem_singleton.mpr rfl)⟩ = ix3 b t (0 : Fin 1) := by
      funext c; refine Fin.ext ?_
      match c with
      | ⟨0, _⟩ => rfl
      | ⟨1, _⟩ => rfl
      | ⟨2, _⟩ => rfl
    rw [hsi]
    rfl
  | ⟨1, _⟩ =>
    show (rowsDims N D R C wf).start (ix3 b t e) ids 1 + (rowsDims N D R C wf).batchCoord (ix3 b t e) 1
        + (rowsDims N D R C wf).offCoord (ix3 b t e) 1 = e.val
    have hsm : ¬ (1 : Fin 2) ∈ (rowsDims N D R C wf).startIndexMap :=
      fun h => absurd (congrArg Fin.val (List.mem_singleton.mp h)) Nat.one_ne_zero
    have hk : (1 : Fin 2) ∈ (rowsDims N D R C wf).sKept :=
      (GatherDims.mem_sKept _ _).mpr ⟨fun h => absurd (congrArg Fin.val (List.mem_singleton.mp h)) Nat.one_ne_zero, List.not_mem_nil⟩
    rw [GatherDims.batchCoord_eq_zero _ _ _ List.not_mem_nil]
    unfold GatherDims.start GatherDims.offCoord
    rw [dif_neg hsm, dif_pos hk]
    simp only [Nat.add_zero, Nat.zero_add]
    rfl

end Cert.LibGatherRows

end
-- ==== Proof.RefValue.lean ====
/-
  What the reference program computes, entry by entry.

  The reference looks up the embedding row of EVERY id (all 256 time steps), runs the cell on all of them, and keeps
  the last time step. Followed backwards from result entry (b, o), only time step 255 of batch element b is read:
  the result is the output row of the row looked up for x(b, 255). The lookup first adds 16 to a negative id, then
  clamps into [0, 15]; on a non-negative id the first step does nothing and the row is `rowOf` of the id. The
  reference adds the two bias vectors one after the other, (p + b1) + b2, where the specification adds their sum:
  addition of extended reals is associative.
-/
import proofs.«415446_j16922171146514_3_alg».proof.Proof.Gen.ReferenceIdeal.Read
import proofs.«415446_j16922171146514_3_alg».proof.Proof.LstmTable
import proofs.«415446_j16922171146514_3_alg».proof.Proof.LibGatherRows

noncomputable section

open scoped BigOperators

namespace Cert.ReferenceIdeal.Cell

open Cert.ReferenceIdeal Cert.ReferenceIdeal.Gen Cert.ReferenceIdeal.Read Idealize.ShloMosaic Idealize.ShloMosaic.ValueIdx
open Cert.LstmTable

variable (x0 : (⟨S4096x256, .i32⟩ : BufTy).Contents (Elt Ideal)) (x1 : (⟨S16x10, .f32⟩ : BufTy).Contents (Elt Ideal))
  (x2 : (⟨S200x10, .f32⟩ : BufTy).Contents (Elt Ideal)) (x3 x5 : (⟨S200, .f32⟩ : BufTy).Contents (Elt Ideal))
  (x6 : (⟨S16x50, .f32⟩ : BufTy).Contents (Elt Ideal)) (x7 : (⟨S16, .f32⟩ : BufTy).Contents (Elt Ideal))

/-- The sum of the two bias vectors. -/
abbrev biasSum : FVec Ideal S200 .f32 := addf (x3 : FVec Ideal S200 .f32) (x5 : FVec Ideal S200 .f32)

/-- The literal 1.0 is the extended real 1. -/
theorem one_f32 : FloatOps.ofBits (F := Ideal) .f32 0x3F800000#32 = (1 : EReal) := by
  show Ideal.ofBits .f32 0x3F800000#32 = 1
  simp [Ideal.ofBits, Ideal.ieee, -EReal.coe_mul]; norm_num

/-! ## The looked-up row -/

/-- On a non-negative id, "add 16 where negative" returns the id. -/
theorem wrapped_id (b : Fin 4096) (t : Fin 256) (h : IntOp.cmpi .sge (x0 (ix2 b t)) 0#32 = 1#1) :
    val_main_v4 (F := Ideal) x0 (ix2 b t) = x0 (ix2 b t) := by
  rw [val_main_v4_apply, val_main_v1_apply, val_main_v0_apply, val_main_c_apply, not_slt_zero_of_sge _ h]
  exact select_zero _ _

/-- Entry e of the row looked up for a non-negative id x(b, t) is the table's entry at row `rowOf` of the id. -/
theorem emb_row (b : Fin 4096) (t : Fin 256) (e : Fin 10) (h : IntOp.cmpi .sge (x0 (ix2 b t)) 0#32 = 1#1) :
    val_main_v6 (F := Ideal) x0 x1 (ix3 b t e) = x1 (ix2 (rowOf (x0 (ix2 b t))) e) := by
  unfold val_main_v6
  show Host.gather (LibGatherRows.rowsDims 16 10 4096 256 _) x1 (val_main_v5 (F := Ideal) x0) (ix3 b t e) = _
  rw [LibGatherRows.gather_rows_apply (by decide)]
  have e5 : idx_main_v5 (ix3 b t (0 : Fin 1)) = ix2 b t := funext fun a => Fin.ext (by
    match a with
    | ⟨0, _⟩ => rfl
    | ⟨1, _⟩ => rfl)
  have hw : val_main_v5 (F := Ideal) x0 (ix3 b t (0 : Fin 1)) = x0 (ix2 b t) := by
    rw [val_main_v5_apply, e5, wrapped_id x0 b t h]
  refine congrArg (fun r => x1 (ix2 r e)) (Fin.ext ?_)
  show min (val_main_v5 (F := Ideal) x0 (ix3 b t (0 : Fin 1))).toInt.toNat (16 - 1) = min (x0 (ix2 b t)).toInt.toNat 15
  rw [hw]

/-! ## The cell at the last time step -/

/-- The reference's preactivation at (b, 255, f) is the cell's preactivation of the id's table row. -/
theorem pre_ref (b : Fin 4096) (f : Fin 200) (h : IntOp.cmpi .sge (x0 (ix2 b (255 : Fin 256))) 0#32 = 1#1) :
    val_main_v13 (F := Ideal) x0 x1 x2 x3 x5 (ix3 b (255 : Fin 256) f)
      = pre x1 x2 (biasSum x3 x5) (rowOf (x0 (ix2 b (255 : Fin 256)))) f := by
  rw [val_main_v13_apply, val_main_v10_apply, val_main_v7_apply, val_main_v9_apply, val_main_v8_apply,
    val_main_v12_apply, val_main_v11_apply]
  have e3 : idx_main_v8 (idx_main_v9 (ix3 b (255 : Fin 256) f)) = ix1 f := funext fun a => Fin.ext (by
    match a with
    | ⟨0, _⟩ => rfl)
  have e5 : idx_main_v11 (idx_main_v12 (ix3 b (255 : Fin 256) f)) = ix1 f := funext fun a => Fin.ext (by
    match a with
    | ⟨0, _⟩ => rfl)
  rw [e3, e5]
  unfold pre
  show ((∑ k : Fin 10, _) + x3 (ix1 f)) + x5 (ix1 f) = (∑ e : Fin 10, _) + (x3 (ix1 f) + x5 (ix1 f))
  rw [add_assoc]
  congr 1
  refine Finset.sum_congr rfl fun k _ => ?_
  have el : lidx_main_v7 (ix3 b (255 : Fin 256) f) k = ix3 b (255 : Fin 256) k := funext fun a => Fin.ext (by
    match a with
    | ⟨0, _⟩ => rfl
    | ⟨1, _⟩ => rfl
    | ⟨2, _⟩ => rfl)
  have er : ridx_main_v7 (ix3 b (255 : Fin 256) f) k = ix2 f k := funext fun a => Fin.ext (by
    match a with
    | ⟨0, _⟩ => rfl
    | ⟨1, _⟩ => rfl)
  rw [el, er, emb_row x0 x1 b (255 : Fin 256) k h]

/-- The reference's sigmoid, spelt 1 / (1 + exp(−p)) with the literal 1.0, at gate column g < 150 of (b, 255). -/
theorem gate_ref (b : Fin 4096) (g : Fin 150) (h : IntOp.cmpi .sge (x0 (ix2 b (255 : Fin 256))) 0#32 = 1#1) :
    val_main_v20 (F := Ideal) x0 x1 x2 x3 x5 (ix3 b (255 : Fin 256) g)
      = Ideal.logistic (pre x1 x2 (biasSum x3 x5) (rowOf (x0 (ix2 b (255 : Fin 256)))) ⟨g.val, by omega⟩) := by
  rw [val_main_v20_apply, val_main_v19_apply, val_main_cst_1_apply, val_main_v18_apply, val_main_v17_apply,
    val_main_cst_apply, val_main_v16_apply, val_main_v15_apply, val_main_v14_apply]
  have e : idx_main_v14 (ix3 b (255 : Fin 256) g) = ix3 b (255 : Fin 256) (⟨g.val, by omega⟩ : Fin 200) :=
    funext fun a => Fin.ext (by
      match a with
      | ⟨0, _⟩ => rfl
      | ⟨1, _⟩ => rfl
      | ⟨2, _⟩ => rfl)
  rw [e, pre_ref x0 x1 x2 x3 x5 b _ h, one_f32]
  rfl

/-- The reference's hidden state at (b, 255, k) is the cell's hidden state of the id's table row. -/
theorem hid_ref (b : Fin 4096) (k : Fin 50) (h : IntOp.cmpi .sge (x0 (ix2 b (255 : Fin 256))) 0#32 = 1#1) :
    val_main_v27 (F := Ideal) x0 x1 x2 x3 x5 (ix3 b (255 : Fin 256) k)
      = hid x1 x2 (biasSum x3 x5) (rowOf (x0 (ix2 b (255 : Fin 256)))) k := by
  rw [val_main_v27_apply, val_main_v24_apply, val_main_v26_apply, val_main_v25_apply, val_main_v23_apply,
    val_main_v22_apply, val_main_v21_apply]
  have e24 : idx_main_v24 (ix3 b (255 : Fin 256) k) = ix3 b (255 : Fin 256) (⟨100 + k.val, by omega⟩ : Fin 150) :=
    funext fun a => Fin.ext (by
      match a with
      | ⟨0, _⟩ => rfl
      | ⟨1, _⟩ => rfl
      | ⟨2, _⟩ => rfl)
  have e23 : idx_main_v23 (ix3 b (255 : Fin 256) k) = ix3 b (255 : Fin 256) (⟨k.val, by omega⟩ : Fin 150) :=
    funext fun a => Fin.ext (by
      match a with
      | ⟨0, _⟩ => rfl
      | ⟨1, _⟩ => rfl
      | ⟨2, _⟩ => rfl)
  have e21 : idx_main_v21 (ix3 b (255 : Fin 256) k) = ix3 b (255 : Fin 256) (⟨150 + k.val, by omega⟩ : Fin 200) :=
    funext fun a => Fin.ext (by
      match a with
      | ⟨0, _⟩ => rfl
      | ⟨1, _⟩ => rfl
      | ⟨2, _⟩ => rfl)
  rw [e24, e23, e21, gate_ref x0 x1 x2 x3 x5 b _ h, gate_ref x0 x1 x2 x3 x5 b _ h, pre_ref x0 x1 x2 x3 x5 b _ h]
  rfl

/-! ## The result -/

/-- THE REFERENCE'S RESULT, where every last-time-step id is non-negative, is the specification's. -/
theorem result_ref (h : ∀ b : Fin 4096, IntOp.cmpi .sge (x0 (ix2 b (255 : Fin 256))) 0#32 = 1#1) :
    val_main_v34 (F := Ideal) x0 x1 x2 x3 x5 x6 x7 = result x1 x2 (biasSum x3 x5) x6 x7 x0 := by
  funext j
  obtain ⟨b, o, rfl⟩ : ∃ (b : Fin 4096) (o : Fin 16), j = ix2 b o := ⟨j 0, j 1, eq_ix2 j⟩
  rw [val_main_v34_apply, val_main_v31_apply, val_main_v33_apply, val_main_v32_apply]
  have e7 : idx_main_v32 (idx_main_v33 (ix2 b o)) = ix1 o := funext fun a => Fin.ext (by
    match a with
    | ⟨0, _⟩ => rfl)
  rw [e7]
  show (∑ k : Fin 50, _) + x7 (ix1 o) = out x1 x2 (biasSum x3 x5) x6 x7 (rowOf (x0 (ix2 b (255 : Fin 256)))) o
  unfold out
  congr 1
  refine Finset.sum_congr rfl fun k _ => ?_
  rw [val_main_v29_apply, val_main_v28_apply, val_main_v30_apply]
  have e29 : idx_main_v28 (idx_main_v29 (lidx_main_v31 (ix2 b o) k)) = ix3 b (255 : Fin 256) k :=
    funext fun a => Fin.ext (by
      have hb : b.val < 4096 := b.isLt
      have hk : k.val < 50 := k.isLt
      match a with
      | ⟨0, _⟩ => show (b.val * 50 + k.val) / 50 = b.val; omega
      | ⟨1, _⟩ => rfl
      | ⟨2, _⟩ => show (b.val * 50 + k.val) % 50 = k.val; omega)
  have e30 : idx_main_v30 (ridx_main_v31 (ix2 b o) k) = ix2 o k := funext fun a => Fin.ext (by
    match a with
    | ⟨0, _⟩ => rfl
    | ⟨1, _⟩ => rfl)
  rw [e29, e30, hid_ref x0 x1 x2 x3 x5 b k (h b)]

end Cert.ReferenceIdeal.Cell

end
-- ==== Proof.PreIds.lean ====
/-
  What the precondition says about the ids.

  The precondition is a conjunction, carried as one bit: the finiteness of each float argument, and last
  `all((x ≥ 0) & (x < 16))` over the 4096×256 ids. A conjunction that is 1 has every conjunct 1; an "all" that is 1
  has a 1 at every index; so every id is, read signed, at least 0 and below 16.
-/
import proofs.«415446_j16922171146514_3_alg».proof.Pre_finite_inputs
import Idealize.ShloMosaic.PureOps.Ideal
import Idealize.ShloMosaic.Lib.ReduceAll
import Idealize.ShloMosaic.Lib.ValueIdx

noncomputable section

namespace Cert.PreIds

open Idealize.ShloMosaic Idealize.ShloMosaic.ValueIdx Cert.Pre_finite_inputs

/-- The scalar shape has one index. -/
instance : Subsingleton S_.Idx := ⟨fun a b => funext fun d => d.elim0⟩

/-- Where the precondition holds, every id is non-negative and below 16 as a signed integer. -/
theorem ids_in_range [Cert.Pre_finite_inputs.Facts] (a0 : IVec S4096x256 32) (a1 : FVec Ideal S16x10 .f32)
    (a2 : FVec Ideal S200x10 .f32) (a3 : FVec Ideal S200 .f32) (a4 : FVec Ideal S200x50 .f32) (a5 : FVec Ideal S200 .f32)
    (a6 : FVec Ideal S16x50 .f32) (a7 : FVec Ideal S16 .f32)
    (h : Cert.Pre_finite_inputs.fn (F := Ideal) a0 a1 a2 a3 a4 a5 a6 a7 = fun _ => 1#1) (i : S4096x256.Idx) :
    IntOp.cmpi .sge (a0 i) 0#32 = 1#1 ∧ IntOp.cmpi .slt (a0 i) 16#32 = 1#1 := by
  have h0 := congrFun h ix0
  dsimp only [fn, fn_part1, fn_part2] at h0
  have hall := (IntOp.andi_eq_one.mp h0).2
  have hi := Host.reduce_andi_all _ _ _ _ _ hall i
  exact IntOp.andi_eq_one.mp hi

end Cert.PreIds

end
-- ==== Proof.lean ====
/-
  A 16-row embedding lookup followed by one step of an LSTM cell with zero previous state, kept at the last of 256
  time steps: the kernel program against its reference, over the extended reals.

  Both programs compute, for batch element b and output column o,
      out(row(x(b, 255)), o),   out(v, o) = ∑ₕ hid(v, h) · w_out(o, h) + b_out(o),
      hid(v, h) = σ(p(v, 100 + h)) · tanh(σ(p(v, h)) · tanh(p(v, 150 + h))),
      p(v, f) = ∑ₑ emb(v, e) · w1(f, e) + (b1(f) + b2(f))
  (Proof/LstmTable.lean). They differ in how they get there.

  The kernel program reads only the last column of the ids. It computes the whole 16×16 table out(v, o) from the
  table and the weights, clamps each id into [0, 15], turns it into an indicator row, and multiplies: entry (b, o)
  is ∑ᵥ [v = row] · out(v, o) = out(row, o), because 0 · y = 0 and 1 · y = y for every extended real y
  (Proof/KernelPayload.lean; the two blocks of 2048 batch elements assembled in Proof/KernelValue.lean).

  The reference looks up a row for every id at every time step — adding 16 to a negative id first, the lookup then
  clamping —, runs the cell on all of them with the two biases added one after the other, and slices out time step
  255 (Proof/RefValue.lean). Only associativity of + separates (p + b1) + b2 from p + (b1 + b2); the logistic is
  spelt 1 / (1 + exp(−p)) with the literal 1.0, which is what the kernel's single operation denotes.

  The two row numbers agree on a non-negative id and differ on −15 … −1 (the reference wraps those to rows 1 … 15,
  the kernel clamps them to row 0), which is why the precondition asks every id to index the table's 16 rows; the
  proof reads that off the precondition's last conjunct (Proof/PreIds.lean) and uses it at time step 255. Nothing
  here needs the float arguments' finiteness.
-/
import proofs.«415446_j16922171146514_3_alg».proof.Defs
import proofs.«415446_j16922171146514_3_alg».proof.Proof.Gen.Kernel
import proofs.«415446_j16922171146514_3_alg».proof.Proof.Gen.Kernel.Skeleton
import proofs.«415446_j16922171146514_3_alg».proof.Proof.Gen.Kernel.Launch
import proofs.«415446_j16922171146514_3_alg».proof.Proof.Gen.Kernel.Points
import proofs.«415446_j16922171146514_3_alg».proof.Proof.Gen.Kernel.Frame
import proofs.«415446_j16922171146514_3_alg».proof.Proof.Gen.KernelIdeal
import proofs.«415446_j16922171146514_3_alg».proof.Proof.Gen.KernelIdeal.Skeleton
import proofs.«415446_j16922171146514_3_alg».proof.Proof.Gen.KernelIdeal.Launch
import proofs.«415446_j16922171146514_3_alg».proof.Proof.Gen.KernelIdeal.Points
import proofs.«415446_j16922171146514_3_alg».proof.Proof.Gen.KernelIdeal.Frame
import proofs.«415446_j16922171146514_3_alg».proof.Proof.Gen.ReferenceIdeal
import proofs.«415446_j16922171146514_3_alg».proof.Proof.Gen.Pre_finite_inputs
import proofs.«415446_j16922171146514_3_alg».proof.Proof.Gen.KernelIdeal.Value
import proofs.«415446_j16922171146514_3_alg».proof.Proof.Gen.ReferenceIdeal.Run
import proofs.«415446_j16922171146514_3_alg».proof.Proof.Gen.ReferenceIdeal.Read
import proofs.«415446_j16922171146514_3_alg».proof.Proof.KernelValue
import proofs.«415446_j16922171146514_3_alg».proof.Proof.RefValue
import proofs.«415446_j16922171146514_3_alg».proof.Proof.PreIds
import Idealize.ShloMosaic.Adequacy
import Idealize.ShloMosaic.Init

noncomputable section

namespace Cert.Proof

open Idealize.ShloMosaic Idealize.SL.Sem Idealize.ShloMosaic.ValueIdx

/-- The kernel program as printed runs and leaves its arguments alone. -/
theorem frame_k : Cert.frame_Kernel := fun m ρ _ => Cert.Kernel.Gen.frame m ρ

/-- So does its reading over the extended reals. -/
theorem frame_ki : Cert.frame_KernelIdeal := fun m ρ _ => Cert.KernelIdeal.Gen.frame m ρ

/-- The reference is a straight line of array operations: it runs, and its arguments are never written. -/
theorem frame_ri : Cert.frame_ReferenceIdeal := fun m ρ _ =>
  (θ_run Cert.ReferenceIdeal.defs _ _).mono (fun _ h c => (h c).2) (Cert.ReferenceIdeal.Value.run (F := Ideal) m ρ)

/-- Reading the kernel over the extended reals rewrote none of its operations. -/
theorem preserves : Cert.preserves_Kernel_KernelIdeal := trivial

/-- From memories agreeing on the arguments, with every id in [0, 16), both programs end with the result array at
    `LstmTable.result` of the arguments: the kernel's by its two blocks, the reference's because every last-time-step
    id is non-negative. -/
theorem algebraic : Cert.algebraic_KernelIdeal_ReferenceIdeal := by
  intro m ρ m' ρ' hpre hagree
  refine ⟨fun c => Cert.KernelIdeal.Whole.G m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v34_eq]
  obtain ⟨h0, h1, h2, h3, _, h5, h6, h7⟩ := hagree c
  rw [h0, h1, h2, h3, h5, h6, h7]
  exact Cert.ReferenceIdeal.Cell.result_ref _ _ _ _ _ _ _
    (fun b => (Cert.PreIds.ids_in_range _ _ _ _ _ _ _ _ (hpre c) (ix2 b (255 : Fin 256))).1)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
